-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 11
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S16384x4096, .bf16⟩
  | .hbm, ⟨7, _⟩ => ⟨S1x16384, .f32⟩
  | .hbm, ⟨8, _⟩ => ⟨S1x16384, .f32⟩
  | .hbm, ⟨9, _⟩ => ⟨S8192x16384, .f32⟩
  | .hbm, ⟨10, _⟩ => ⟨S4x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x16384.size a
  hwx0_4 : ∀ i : grid0.Coords, EltTy.bits .f32 = 32 ∨ (Rect.block (s := S8192x16384) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S8192x16384 : Shape := ⟨2, ![8192, 16384]⟩
abbrev S1x16384 : Shape := ⟨2, ![1, 16384]⟩
abbrev S4x2048x16384 : Shape := ⟨3, ![4, 2048, 16384]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S8192x4096, .f32⟩
  | .hbm, ⟨6, _⟩ => ⟨S8192x16384, .f32⟩
  | .hbm, ⟨7, _⟩ => ⟨S1x16384, .f32⟩
  | .hbm, ⟨8, _⟩ => ⟨S8192x16384, .f32⟩
  | .hbm, ⟨9, _⟩ => ⟨S8192x16384, .f32⟩
  | .hbm, ⟨10, _⟩ => ⟨S1x16384, .f32⟩
  | .hbm, ⟨11, _⟩ => ⟨S8192x16384, .f32⟩
  | .hbm, ⟨12, _⟩ => ⟨S8192x16384, .f32⟩
  | .hbm, ⟨13, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  shapeCasts_S8192x16384_S4x2048x16384 : S8192x16384.ShapeCasts S4x2048x16384
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.KernelTile.lean ====
/- What one grid step of the kernel stores, entry by entry. The step holds a 1024 × 4096 tile A of token rows, a
   512 × 4096 tile B of weight rows, and the 1 × 512 rows s, b of the matching scales and biases; it stores the
   1024 × 512 tile whose entry (p, q) is (Σ_k A[p, k] · B[q, k]) / s[q] + b[q]: the matrix product contracts the
   feature axis of both tiles into a zero accumulator, and the scale and bias rows are broadcast down the token rows. -/
import proofs.«180752_j17927193493750_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the tile product: token row and feature on the left, weight row and feature on the right -/

theorem lhs_tok (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_feat (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_chan (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_feat (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The tile product into a zero accumulator, at (p, q): the inner product of row p of A with row q of B. -/
theorem product_apply (A : FVec Ideal S1024x4096 .bf16) (B : FVec Ideal S512x4096 .bf16) (p : Fin 1024) (q : Fin 512) :
    matmul (F := Ideal) (φ₁ := .bf16) (φ₂ := .bf16) dot_S1024x4096_S512x4096_S1024x512_1_1_0_0_n_n none A B (constant S1024x512 .f32 0x00000000#32) (ix2 p q)
      = ∑ k : Fin 4096, (A (ix2 p k) : EReal) * B (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_tok _ _
    | ⟨1, _⟩ => exact (lhs_feat _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_chan _ _
    | ⟨1, _⟩ => exact (rhs_feat _ _).trans hk)
  rw [el, er]

/-- A 1 × 512 row broadcast down 1024 token rows, at (p, q), is the row's entry q. -/
theorem row_down_apply (r : Vec Ideal S1x512 .f32) (p : Fin 1024) (q : Fin 512) :
    broadcastTo S1024x512 r broadcasts_S1x512_S1024x512 (ix2 p q) = r (ix2 (0 : Fin 1) q) :=
  broadcastTo_apply r broadcasts_S1x512_S1024x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- THE STORED TILE, entry (p, q): the inner product of row p of A with row q of B, over s[q], plus b[q]. -/
theorem stored_apply (A : Vec Ideal S1024x4096 .bf16) (B : Vec Ideal S512x4096 .bf16) (s b : Vec Ideal S1x512 .f32)
    (p : Fin 1024) (q : Fin 512) :
    k0_pay1 A B s b (ix2 p q)
      = Ideal.div (∑ k : Fin 4096, (A (ix2 p k) : EReal) * B (ix2 q k)) (s (ix2 (0 : Fin 1) q)) + b (ix2 (0 : Fin 1) q) := by
  unfold k0_pay1
  simp only [shapeCast_self]
  rw [addf_apply, divf_apply, product_apply, row_down_apply, row_down_apply]

/-- The same at any entry j = (j₀, j₁) of the tile. -/
theorem stored_at (A : Vec Ideal S1024x4096 .bf16) (B : Vec Ideal S512x4096 .bf16) (s b : Vec Ideal S1x512 .f32)
    (j : S1024x512.Idx) :
    k0_pay1 A B s b j
      = Ideal.div (∑ k : Fin 4096, (A (ix2 (j 0) k) : EReal) * B (ix2 (j 1) k)) (s (ix2 (0 : Fin 1) (j 1))) + b (ix2 (0 : Fin 1) (j 1)) := by
  obtain ⟨p, q, rfl⟩ : ∃ (p : Fin 1024) (q : Fin 512), j = ix2 p q := ⟨j 0, j 1, eq_ix2 j⟩
  exact stored_apply A B s b p q

end Cert.KernelIdeal.Tile

end
-- ==== Proof.Dequant.lean ====
/- The mathematics both programs compute, on the flattened layout: with T = 4·2048 = 8192 token rows, K = 4096
   input features and N = 16384 output channels, entry (t, n) of the result is

       (Σ_k X[t, k] · W[n, k]) / s[n] + b[n]

   over the extended reals: the inner product of token row t with the (integer-valued) weight row n, divided by channel
   n's scale, plus channel n's bias. No algebraic law is needed to join the two programs: both compute exactly this
   expression, the kernel tile by tile, the reference in one product. Here it is stated once, with the small facts
   about reading a length-N vector laid out as a 1 × N row. -/
import Idealize.ShloMosaic.PureOps.Ideal
import Idealize.ShloMosaic.PureOps.Ideal.Laws
import Idealize.ShloMosaic.Lib.ValueIdx
import Idealize.ShloMosaic.Lib.Pipeline.Value

noncomputable section

namespace Cert.Dequant

open Idealize.ShloMosaic Idealize.ShloMosaic.ValueIdx

/-- Token rows by input features. -/
abbrev STK : Shape := ⟨2, ![8192, 4096]⟩
/-- Output channels by input features. -/
abbrev SNK : Shape := ⟨2, ![16384, 4096]⟩
/-- One value per output channel. -/
abbrev SN : Shape := ⟨1, ![16384]⟩
/-- The same laid out as a single row. -/
abbrev S1N : Shape := ⟨2, ![1, 16384]⟩
/-- Token rows by output channels. -/
abbrev STN : Shape := ⟨2, ![8192, 16384]⟩

/-- Entry (t, n): the inner product of row t of `X` with row n of `W`, over channel n's scale, plus channel n's bias. -/
def out (X : STK.Idx → EReal) (W : SNK.Idx → EReal) (s b : SN.Idx → EReal) : STN.Idx → EReal :=
  fun i => Ideal.div (∑ k : Fin 4096, X (ix2 (i 0) k) * W (ix2 (i 1) k)) (s (ix1 (i 1))) + b (ix1 (i 1))

/-- The tokens as given: 4 batches of 2048 rows. -/
abbrev SBTK : Shape := ⟨3, ![4, 2048, 4096]⟩
/-- The result as returned: 4 batches of 2048 rows of 16384 channels. -/
abbrev SBTN : Shape := ⟨3, ![4, 2048, 16384]⟩

theorem flatten_tokens : SBTK.ShapeCasts STK := by decide
theorem unflatten_result : STN.ShapeCasts SBTN := by decide

/-- THE RESULT as one function of the four inputs: flatten the tokens' batch and row axes, read each integer weight as
    the real number it is, take `out`, and split the rows back into batches. -/
def result (x : SBTK.Idx → EReal) (w : SNK.Idx → BitVec 32) (s b : SN.Idx → EReal) : SBTN.Idx → EReal :=
  shapeCast SBTN (out (shapeCast STK x flatten_tokens) (fun i => (((w i).toInt : ℝ) : EReal)) s b) unflatten_result

/-- A length-N vector reshaped to a 1 × N row, read at column j, is the vector's entry j. -/
theorem row_of_reshape {α : Type} (v : SN.Idx → α) (h : SN.ShapeCasts S1N) (j : Fin 16384) :
    shapeCast S1N v h (ix2 (0 : Fin 1) j) = v (ix1 j) :=
  shapeCast_apply v h (ix2 (0 : Fin 1) j) (ix1 j) (by
    rw [Shape.rowMajor_val_one, Shape.rowMajor_val_two]
    show j.val = 0 * 16384 + j.val
    omega)

/-- Reading the reshaped row back column by column gives the vector. -/
theorem reshape_row_eq {α : Type} (v : SN.Idx → α) (h : SN.ShapeCasts S1N) :
    (fun j : SN.Idx => shapeCast S1N v h (ix2 (0 : Fin 1) (j 0))) = v :=
  funext fun j => (row_of_reshape v h (j 0)).trans (congrArg v (eq_ix1 j).symm)

/-- A length-N vector broadcast along a new leading unit axis, read at column j, is the vector's entry j. -/
theorem row_of_broadcast {α : Type} (v : SN.Idx → α) (h : SN.BroadcastsInDim S1N (![1] : Fin 1 → Fin S1N.rank)) (j : Fin 16384) :
    broadcastInDim S1N ![1] h v (ix2 (0 : Fin 1) j) = v (ix1 j) :=
  broadcastInDim_apply _ h v (ix2 (0 : Fin 1) j) (ix1 j) (fun a => match a with
    | ⟨0, _⟩ => by show j.val = if (16384 : Nat) = 1 then 0 else j.val; rw [if_neg (by decide)])

end Cert.Dequant

end
-- ==== Proof.KernelWhole.lean ====
/- From tiles to the whole product. The grid has 8 × 32 steps; step (i, j) holds token rows 1024·i … 1024·i + 1023 and
   weight rows (= output channels) 512·j … 512·j + 511, with the scales and biases of those channels, and writes back
   tile (i, j) of the 8192 × 16384 result. So what a step writes back is the restriction to its tile of ONE function of
   the arrays the region finds — entry (t, n) is (Σ_k X[t, k] · W[n, k]) / s[n] + b[n] — and, the 256 tiles covering the
   result, the result array ends holding that function. -/
import proofs.«180752_j17927193493750_1_alg».proof.Proof.Gen.KernelIdeal.Frame
import proofs.«180752_j17927193493750_1_alg».proof.Proof.KernelTile
import proofs.«180752_j17927193493750_1_alg».proof.Proof.Dequant
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The arrays the region finds, and the tiles a step holds -/

/-- The token rows (8192 × 4096). -/
abbrev tokens (c : Dev nD) : Vec Ideal S8192x4096 .bf16 := V m c main_v1
/-- The weight rows (16384 × 4096), already as floats. -/
abbrev weights (c : Dev nD) : Vec Ideal S16384x4096 .bf16 := V m c main_v2
/-- The scales as a 1 × 16384 row. -/
abbrev scaleRow (c : Dev nD) : Vec Ideal S1x16384 .f32 := V m c main_v3
/-- The biases as a 1 × 16384 row. -/
abbrev biasRow (c : Dev nD) : Vec Ideal S1x16384 .f32 := V m c main_v4

/-- Step t's tile of token rows, -/
abbrev tokTile (c : Dev nD) (t : Fin cfg0.N) : Vec Ideal S1024x4096 .bf16 := iblk m c 0 t
/-- of weight rows, -/
abbrev wTile (c : Dev nD) (t : Fin cfg0.N) : Vec Ideal S512x4096 .bf16 := iblk m c 1 t
/-- of scales, -/
abbrev sTile (c : Dev nD) (t : Fin cfg0.N) : Vec Ideal S1x512 .f32 := iblk m c 2 t
/-- and of biases. -/
abbrev bTile (c : Dev nD) (t : Fin cfg0.N) : Vec Ideal S1x512 .f32 := iblk m c 3 t

/-- THE REGION'S RESULT as one function of the arrays it finds. -/
def product (c : Dev nD) : S8192x16384.Idx → EReal :=
  Cert.Dequant.out (tokens m c) (weights m c) (fun j => scaleRow m c (ix2 (0 : Fin 1) (j 0))) (fun j => biasRow m c (ix2 (0 : Fin 1) (j 0)))

/-! ## Which tile each step holds -/

/-- At every step: the token tile sits in the output tile's row band and spans all features; the weight tile's rows,
    and the scale and bias tiles' columns, are the output tile's column band; and the output tile's band numbers stay
    below 8 and 32. -/
theorem tile_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 7 ∧ win0_4.index t (1 : Fin 2) ≤ 31 :=
  (by decide +kernel : ∀ t : Fin grid0.N, _)

/-- Every (row band, column band) pair is some step's output tile. -/
theorem tile_onto : ∀ (q0 : Fin 8) (q1 : Fin 32), ∃ t : Fin cfg0.N, win0_4.index t = ![q0.val, q1.val] :=
  (by decide +kernel : ∀ (q0 : Fin 8) (q1 : Fin 32), ∃ t : Fin grid0.N, win0_4.index t = ![q0.val, q1.val])

/-! ## A step's tiles are restrictions of the arrays -/

/-- Token tile entry (p, k) is the token array's entry (1024·band + p, k). -/
theorem tokTile_apply (c : Dev nD) (t : Fin cfg0.N) (p : Fin 1024) (k : Fin 4096) (i : S8192x4096.Idx)
    (h0 : (i 0).val = win0_4.index t (0 : Fin 2) * 1024 + p.val) (h1 : (i 1).val = k.val) :
    tokTile m c t (ix2 p k) = tokens m c i := by
  obtain ⟨e0, e1, -⟩ := tile_indices t
  show V m c main_v1 (((cfg0.win 0).blk t).view.emb (ix2 p k)) = V m c main_v1 i
  refine congrArg _ (funext fun a => Fin.ext ?_)
  match a with
  | ⟨0, _⟩ => show win0_0.index t (0 : Fin 2) * 1024 + 1 * p.val = (i 0).val; omega
  | ⟨1, _⟩ => show win0_0.index t (1 : Fin 2) * 4096 + 1 * k.val = (i 1).val; omega

/-- Weight tile entry (q, k) is the weight array's entry (512·band + q, k). -/
theorem wTile_apply (c : Dev nD) (t : Fin cfg0.N) (q : Fin 512) (k : Fin 4096) (i : S16384x4096.Idx)
    (h0 : (i 0).val = win0_4.index t (1 : Fin 2) * 512 + q.val) (h1 : (i 1).val = k.val) :
    wTile m c t (ix2 q k) = weights m c i := by
  obtain ⟨-, -, e2, e3, -⟩ := tile_indices t
  show V m c main_v2 (((cfg0.win 1).blk t).view.emb (ix2 q k)) = V m c main_v2 i
  refine congrArg _ (funext fun a => Fin.ext ?_)
  match a with
  | ⟨0, _⟩ => show win0_1.index t (0 : Fin 2) * 512 + 1 * q.val = (i 0).val; omega
  | ⟨1, _⟩ => show win0_1.index t (1 : Fin 2) * 4096 + 1 * k.val = (i 1).val; omega

/-- Scale tile entry (0, q) is the scale row's entry (0, 512·band + q). -/
theorem sTile_apply (c : Dev nD) (t : Fin cfg0.N) (q : Fin 512) (i : S1x16384.Idx)
    (h1 : (i 1).val = win0_4.index t (1 : Fin 2) * 512 + q.val) :
    sTile m c t (ix2 (0 : Fin 1) q) = scaleRow m c i := by
  obtain ⟨-, -, -, -, e4, e5, -⟩ := tile_indices t
  have h0 : (i 0).val = 0 := by have hlt : (i 0).val < 1 := (i 0).isLt; omega
  show V m c main_v3 (((cfg0.win 2).blk t).view.emb (ix2 (0 : Fin 1) q)) = V m c main_v3 i
  refine congrArg _ (funext fun a => Fin.ext ?_)
  match a with
  | ⟨0, _⟩ => show win0_2.index t (0 : Fin 2) * 1 + 1 * 0 = (i 0).val; omega
  | ⟨1, _⟩ => show win0_2.index t (1 : Fin 2) * 512 + 1 * q.val = (i 1).val; omega

/-- Bias tile entry (0, q) is the bias row's entry (0, 512·band + q). -/
theorem bTile_apply (c : Dev nD) (t : Fin cfg0.N) (q : Fin 512) (i : S1x16384.Idx)
    (h1 : (i 1).val = win0_4.index t (1 : Fin 2) * 512 + q.val) :
    bTile m c t (ix2 (0 : Fin 1) q) = biasRow m c i := by
  obtain ⟨-, -, -, -, -, -, e6, e7, -⟩ := tile_indices t
  have h0 : (i 0).val = 0 := by have hlt : (i 0).val < 1 := (i 0).isLt; omega
  show V m c main_v4 (((cfg0.win 3).blk t).view.emb (ix2 (0 : Fin 1) q)) = V m c main_v4 i
  refine congrArg _ (funext fun a => Fin.ext ?_)
  match a with
  | ⟨0, _⟩ => show win0_3.index t (0 : Fin 2) * 1 + 1 * 0 = (i 0).val; omega
  | ⟨1, _⟩ => show win0_3.index t (1 : Fin 2) * 512 + 1 * q.val = (i 1).val; omega

/-- Where entry j of step t's output tile lands in the result: row 1024·band₀ + j₀, column 512·band₁ + j₁. -/
theorem out_emb (t : Fin cfg0.N) (j : S1024x512.Idx) :
    ((((cfg0.win 4).blk t).view.emb j) 0).val = win0_4.index t (0 : Fin 2) * 1024 + (j 0).val
    ∧ ((((cfg0.win 4).blk t).view.emb j) 1).val = win0_4.index t (1 : Fin 2) * 512 + (j 1).val := by
  constructor
  · show win0_4.index t (0 : Fin 2) * 1024 + 1 * (j 0).val = _; omega
  · show win0_4.index t (1 : Fin 2) * 512 + 1 * (j 1).val = _; omega

/-! ## What a step writes back, and the array after the run -/

/-- WHAT STEP t WRITES BACK is tile t of `product`. -/
theorem flushed_eq (c : Dev nD) (t : Fin cfg0.N) :
    (dats m 0 c).flushed 4 t = ((cfg0.win 4).blk t).view.read (Elt Ideal) (product m c) := by
  show (cfg0.win 4).cut (grid0.coords t) ((dats m 0 c).after 4 t) = _
  rw [after0_4]
  unfold out0_4
  rw [View.canon_unit_zero zero_offsets]
  simp only [View.ld_unit_zero (S := S1024x4096) zero_offsets, View.ld_unit_zero (S := S512x4096) zero_offsets, View.ld_unit_zero (S := S1x512) zero_offsets]
  funext j
  show k0_pay1 (tokTile m c t) (wTile m c t) (sTile m c t) (bTile m c t) j = product m c (((cfg0.win 4).blk t).view.emb j)
  refine (Tile.stored_at (tokTile m c t) (wTile m c t) (sTile m c t) (bTile m c t) j).trans ?_
  obtain ⟨r0, r1⟩ := out_emb t j
  unfold product Cert.Dequant.out
  show Ideal.div (∑ k : Fin 4096, (tokTile m c t (ix2 (j 0) k) : EReal) * wTile m c t (ix2 (j 1) k)) (sTile m c t (ix2 (0 : Fin 1) (j 1))) + bTile m c t (ix2 (0 : Fin 1) (j 1))
    = Ideal.div (∑ k : Fin 4096, (tokens m c (ix2 ((((cfg0.win 4).blk t).view.emb j) 0) k) : EReal) * weights m c (ix2 ((((cfg0.win 4).blk t).view.emb j) 1) k))
        (scaleRow m c (ix2 (0 : Fin 1) ((((cfg0.win 4).blk t).view.emb j) 1))) + biasRow m c (ix2 (0 : Fin 1) ((((cfg0.win 4).blk t).view.emb j) 1))
  rw [sTile_apply m c t (j 1) (ix2 (0 : Fin 1) ((((cfg0.win 4).blk t).view.emb j) 1)) r1,
    bTile_apply m c t (j 1) (ix2 (0 : Fin 1) ((((cfg0.win 4).blk t).view.emb j) 1)) r1]
  refine congrArg (fun z => Ideal.div z _ + _) (Finset.sum_congr rfl fun k _ => ?_)
  rw [tokTile_apply m c t (j 0) k (ix2 ((((cfg0.win 4).blk t).view.emb j) 0) k) r0 rfl,
    wTile_apply m c t (j 1) k (ix2 ((((cfg0.win 4).blk t).view.emb j) 1) k) r1 rfl]

/-- An entry of the result is in step t's tile iff its row and column are in the tile's bands. -/
theorem mem_tile (t : Fin cfg0.N) (i : S8192x16384.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v5).slice (win0_4.rect t)).set ↔ _
  rw [View.set_slice_whole, Rect.mem_set_unit]
  exact Iff.rfl

/-- The tiles cover the result: entry (r, n) is in the tile of row band r / 1024 and column band n / 512. -/
theorem tiles_cover (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  obtain ⟨t, ht⟩ := tile_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE RESULT ARRAY after the last step is `product`. -/
theorem result_array (c : Dev nD) : (dats m 0 c).arrAt 4 cfg0.N = product m c :=
  (dats m 0 c).arrAt_eq_of_cover 4 (product m c) (fun t _ => flushed_eq m c t) tiles_cover

end Cert.KernelIdeal.Whole

end
-- ==== Proof.KernelRun.lean ====
/- The kernel's whole run. Before the region the host flattens the tokens to 8192 rows (the narrowing to a 16-bit
   format that follows is the identity on extended reals), reads each integer weight as a float, and reshapes the scale
   and bias vectors to 1 × 16384 rows; after it, the host splits the 8192 result rows back into 4 × 2048. Put around the
   region's result, this makes the returned array the one function `Dequant.result` of the four inputs. -/
import proofs.«180752_j17927193493750_1_alg».proof.Proof.KernelWhole
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds, from the inputs -/

theorem tokens_eq (c : Dev nD) :
    tokens m c = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results <;> rfl

theorem weights_eq (c : Dev nD) :
    weights m c = sitofp (F := Ideal) .bf16 (m ((c : Thread nD τ).loc main_arg1)) := by
  show StableHlo.after hostOps0 (fun b => m (c, b)) (Proc.devRef .tc main_v2) = _
  after_results <;> rfl

theorem scaleRow_eq (c : Dev nD) :
    scaleRow m c = shapeCast S1x16384 (m ((c : Thread nD τ).loc main_arg2)) shapeCasts_S16384_S1x16384 := by
  show StableHlo.after hostOps0 (fun b => m (c, b)) (Proc.devRef .tc main_v3) = _
  after_results <;> rfl

theorem biasRow_eq (c : Dev nD) :
    biasRow m c = shapeCast S1x16384 (m ((c : Thread nD τ).loc main_arg3)) shapeCasts_S16384_S1x16384 := by
  show StableHlo.after hostOps0 (fun b => m (c, b)) (Proc.devRef .tc main_v4) = _
  after_results <;> rfl

/-- The region's result in terms of the inputs. -/
theorem product_inputs (c : Dev nD) :
    product m c = Cert.Dequant.out (shapeCast Cert.Dequant.STK (m ((c : Thread nD τ).loc main_arg0)) Cert.Dequant.flatten_tokens)
      (fun i => (((m ((c : Thread nD τ).loc main_arg1) i).toInt : ℝ) : EReal))
      (m ((c : Thread nD τ).loc main_arg2)) (m ((c : Thread nD τ).loc main_arg3)) := by
  unfold product
  rw [tokens_eq, weights_eq, scaleRow_eq, biasRow_eq, Cert.Dequant.reshape_row_eq, Cert.Dequant.reshape_row_eq]
  rfl

/-! ## The returned array -/

/-- After the host's final reshape, the returned array is `Dequant.result` of the inputs. -/
theorem returned_eq (c : Dev nD) :
    Pipeline.afterTail₀ cfgs (dats m) 0 (V0 m) [hostOps1] c main_v6
      = Cert.Dequant.result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  rw [(Pipeline.withArrays_arr spec0 launch0.win.arr_inj c _ _ 4).trans (result_array m c), product_inputs]
  rfl

/-- THE KERNEL'S RUN: every weakly fair execution ends with the returned array at `Dequant.result` of the inputs and the
    inputs unchanged. -/
theorem run : θ_run defs (onTc (τ := τ) (main (F := Ideal))) ⟨m, fun _ => 0, ρ⟩ fun r => ∀ c : Dev nD,
      r.2.mem ((c.tc : Thread nD τ).loc main_v6)
        = Cert.Dequant.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (returned_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefWhole.lean ====
/- The reference computes the same expression in one product: it converts the integer weights to floats, flattens the
   tokens to 8192 rows, takes the product over the feature axis, divides column n by scale n and adds bias n (each a
   length-16384 vector broadcast first to a 1 × 16384 row, then down the 8192 rows), and reshapes back to 4 × 2048 rows.
   Read entry by entry, the 8192 × 16384 stage before the last reshape is (Σ_k X[t, k] · W[n, k]) / s[n] + b[n]. -/
import proofs.«180752_j17927193493750_1_alg».proof.Proof.Gen.ReferenceIdeal.Read
import proofs.«180752_j17927193493750_1_alg».proof.Proof.Dequant

noncomputable section

namespace Cert.ReferenceIdeal.Whole

open Cert.ReferenceIdeal Cert.ReferenceIdeal.Read Idealize.ShloMosaic Idealize.ShloMosaic.ValueIdx

/-- The stage before the final reshape is the dequantized product of the flattened tokens and the converted weights. -/
theorem product_eq (x0 : (⟨S4x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v8 (F := Ideal) x0 x1 x2 x3
      = Cert.Dequant.out (val_main_v1 (F := Ideal) x0) (val_main_v0 (F := Ideal) x1) x2 x3 := by
  funext i
  have el : ∀ k : Fin 4096, lidx_main_v2 i k = ix2 (i 0) k := fun k => funext fun a => Fin.ext (by
    match a with | ⟨0, _⟩ => rfl | ⟨1, _⟩ => rfl)
  have er : ∀ k : Fin 4096, ridx_main_v2 i k = ix2 (i 1) k := fun k => funext fun a => Fin.ext (by
    match a with | ⟨0, _⟩ => rfl | ⟨1, _⟩ => rfl)
  have es : idx_main_v3 (idx_main_v4 i) = ix1 (i 1) := funext fun a => Fin.ext (by
    match a with | ⟨0, _⟩ => rfl)
  have eb : idx_main_v6 (idx_main_v7 i) = ix1 (i 1) := funext fun a => Fin.ext (by
    match a with | ⟨0, _⟩ => rfl)
  rw [val_main_v8_apply, val_main_v5_apply, val_main_v2_apply, val_main_v4_apply, val_main_v3_apply,
    val_main_v7_apply, val_main_v6_apply, es, eb]
  simp only [el, er]
  rfl

/-- So the reference's result is the one function of the four inputs. -/
theorem result_eq (x0 : (⟨S4x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v9 (F := Ideal) x0 x1 x2 x3 = Cert.Dequant.result x0 x1 x2 x3 := by
  unfold val_main_v9
  rw [product_eq]
  rfl

end Cert.ReferenceIdeal.Whole

end
-- ==== Proof.lean ====
/- The claim: a tiled, dequantizing matrix product against its one-line reference, over the extended reals.

   With T = 4·2048 token rows, K = 4096 features and N = 16384 output channels, both programs return, at batch β,
   row ρ and channel n (t = 2048·β + ρ),

       (Σ_k x[β, ρ, k] · W[n, k]) / s[n] + b[n],

   every integer weight read as the real number it is. The kernel computes it tile by tile (1024 token rows by 512
   channels per grid step, the full feature axis contracted inside the step into a zero accumulator, the step's 512
   scales and biases broadcast down its rows); the reference computes it with one product over the whole arrays. On
   the extended reals a change of float format is the identity, so the kernel's narrowing of tokens and weights to a
   16-bit format changes nothing, and the two sides are the SAME expression entry by entry: no algebraic law, and so
   no finiteness of the inputs, is needed to join them.

   The pieces: `Dequant` states the expression once; `KernelTile` reads one step's stored tile entry by entry;
   `KernelWhole` shows each step writes back its tile of one whole-array function and that the 256 tiles cover the
   result; `KernelRun` puts the host's reshapes and conversions around the region; `RefWhole` reads the reference's
   stages at an index. The frames are the generated ones; the ideal pass rewrote nothing, so `preserves` is trivial. -/
import proofs.«180752_j17927193493750_1_alg».proof.Defs
import proofs.«180752_j17927193493750_1_alg».proof.Proof.Gen.Kernel
import proofs.«180752_j17927193493750_1_alg».proof.Proof.Gen.Kernel.Skeleton
import proofs.«180752_j17927193493750_1_alg».proof.Proof.Gen.Kernel.Launch
import proofs.«180752_j17927193493750_1_alg».proof.Proof.Gen.Kernel.Points
import proofs.«180752_j17927193493750_1_alg».proof.Proof.Gen.Kernel.Frame
import proofs.«180752_j17927193493750_1_alg».proof.Proof.Gen.KernelIdeal
import proofs.«180752_j17927193493750_1_alg».proof.Proof.Gen.KernelIdeal.Skeleton
import proofs.«180752_j17927193493750_1_alg».proof.Proof.Gen.KernelIdeal.Launch
import proofs.«180752_j17927193493750_1_alg».proof.Proof.Gen.KernelIdeal.Points
import proofs.«180752_j17927193493750_1_alg».proof.Proof.Gen.KernelIdeal.Frame
import proofs.«180752_j17927193493750_1_alg».proof.Proof.Gen.ReferenceIdeal
import proofs.«180752_j17927193493750_1_alg».proof.Proof.Gen.ReferenceIdeal.Run
import proofs.«180752_j17927193493750_1_alg».proof.Proof.Gen.ReferenceIdeal.Read
import proofs.«180752_j17927193493750_1_alg».proof.Proof.Gen.Pre_finite_inputs
import proofs.«180752_j17927193493750_1_alg».proof.Proof.KernelRun
import proofs.«180752_j17927193493750_1_alg».proof.Proof.RefWhole
import Idealize.ShloMosaic.Adequacy
import Idealize.ShloMosaic.Init

noncomputable section

namespace Cert.Proof

open Idealize.ShloMosaic Idealize.SL.Sem

/-- The word-level kernel terminates without a fault and leaves its inputs as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From inputs that agree, the kernel ends with its returned array at `Dequant.result` of the inputs, and the
    reference's last stage, read entry by entry, is the same function of the same inputs. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v9_eq _ _ _ _).trans (Cert.ReferenceIdeal.Whole.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
